-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x256x256 : Shape := ⟨4, ![8, 256, 256, 256]⟩
abbrev S8x256 : Shape := ⟨2, ![8, 256]⟩
abbrev S256x256 : Shape := ⟨2, ![256, 256]⟩
abbrev S256 : Shape := ⟨1, ![256]⟩
abbrev S_ : Shape := ⟨0, ![]⟩

class Facts : Prop where
  bcast_S_S8x256x256x256 : S_.BroadcastsInDim S8x256x256x256 (![] : Fin 0 → Fin S8x256x256x256.rank)
  reducesTo_S8x256x256x256_S_d0_1_2_3 : S8x256x256x256.ReducesTo [0, 1, 2, 3] S_
  h_S_ : 0 < S_.numel
  bcast_S_S8x256 : S_.BroadcastsInDim S8x256 (![] : Fin 0 → Fin S8x256.rank)
  reducesTo_S8x256_S_d0_1 : S8x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256x256 .f32) (main_arg5 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S8x256x256x256 .f32) (main_arg1 : FVec F S8x256 .f32) (main_arg2 : FVec F S256x256 .f32) (main_arg3 : FVec F S256 .f32) (main_arg4 : FVec F S256x256 .f32) (main_arg5 : FVec F S256 .f32) : IVec S_ 1 :=
  let main_v0 : FVec F S8x256x256x256 .f32 := Host.absf main_arg0
  let main_cst : FVec F S_ .f32 := constant S_ .f32 0x7F800000#32
  let main_v1 : FVec F S8x256x256x256 .f32 := broadcastInDim S8x256x256x256 ![] bcast_S_S8x256x256x256 main_cst
  let main_v2 : IVec S8x256x256x256 1 := cmpf .olt main_v0 main_v1
  let main_c : IVec S_ 1 := constantI S_ 1 1#1
  let main_v3 : IVec S_ 1 := (fun x v => Host.reduce IntOp.andi x v reducesTo_S8x256x256x256_S_d0_1_2_3 h_S_) main_v2 main_c
  let main_v4 : FVec F S8x256 .f32 := Host.absf main_arg1
  let main_cst_0 : FVec F S_ .f32 := constant S_ .f32 0x7F800000#32
  let main_v5 : FVec F S8x256 .f32 := broadcastInDim S8x256 ![] bcast_S_S8x256 main_cst_0
  let main_v6 : IVec S8x256 1 := cmpf .olt main_v4 main_v5
  let main_c_1 : IVec S_ 1 := constantI S_ 1 1#1
  let main_v7 : IVec S_ 1 := (fun x v => Host.reduce IntOp.andi x v reducesTo_S8x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S8x256x256x256 : Shape := ⟨4, ![8, 256, 256, 256]⟩
abbrev S8x256 : Shape := ⟨2, ![8, 256]⟩
abbrev S256x256 : Shape := ⟨2, ![256, 256]⟩
abbrev S256 : Shape := ⟨1, ![256]⟩
abbrev S1x256 : Shape := ⟨2, ![1, 256]⟩
abbrev S_ : Shape := ⟨0, ![]⟩
abbrev S8 : Shape := ⟨1, ![8]⟩
abbrev S8x1 : Shape := ⟨2, ![8, 1]⟩
abbrev S8x256x1x1 : Shape := ⟨4, ![8, 256, 1, 1]⟩
abbrev S1x256x32x256 : Shape := ⟨4, ![1, 256, 32, 256]⟩
abbrev S1x256x1x1 : Shape := ⟨4, ![1, 256, 1, 1]⟩

abbrev nBuf : Space → Nat
  | .hbm => 42
  | .vmem => 6
  | .smem => 0
  | _ => 0

abbrev bufTy : (tb : Table) → Fin (tcTables nBuf tb) → BufTy
  | .hbm, ⟨0, _⟩ => ⟨S8x256x256x256, .f32⟩
  | .hbm, ⟨1, _⟩ => ⟨S8x256, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S8x256, .f32⟩
  | .hbm, ⟨8, _⟩ => ⟨S1x256, .f32⟩
  | .hbm, ⟨9, _⟩ => ⟨S8x256, .f32⟩
  | .hbm, ⟨10, _⟩ => ⟨S8x256, .f32⟩
  | .hbm, ⟨11, _⟩ => ⟨S_, .f32⟩
  | .hbm, ⟨12, _⟩ => ⟨S8x256, .f32⟩
  | .hbm, ⟨13, _⟩ => ⟨S8x256, .i1⟩
  | .hbm, ⟨14, _⟩ => ⟨S_, .f32⟩
  | .hbm, ⟨15, _⟩ => ⟨S8x256, .f32⟩
  | .hbm, ⟨16, _⟩ => ⟨S8x256, .f32⟩
  | .hbm, ⟨17, _⟩ => ⟨S8x256, .f32⟩
  | .hbm, ⟨18, _⟩ => ⟨S256x256, .f32⟩
  | .hbm, ⟨19, _⟩ => ⟨S8x256, .f32⟩
  | .hbm, ⟨20, _⟩ => ⟨S1x256, .f32⟩
  | .hbm, ⟨21, _⟩ => ⟨S8x256, .f32⟩
  | .hbm, ⟨22, _⟩ => ⟨S8x256, .f32⟩
  | .hbm, ⟨23, _⟩ => ⟨S_, .f32⟩
  | .hbm, ⟨24, _⟩ => ⟨S8, .f32⟩
  | .hbm, ⟨25, _⟩ => ⟨S_, .f32⟩
  | .hbm, ⟨26, _⟩ => ⟨S8, .f32⟩
  | .hbm, ⟨27, _⟩ => ⟨S8, .f32⟩
  | .hbm, ⟨28, _⟩ => ⟨S8x1, .f32⟩
  | .hbm, ⟨29, _⟩ => ⟨S8x256, .f32⟩
  | .hbm, ⟨30, _⟩ => ⟨S8x256, .f32⟩
  | .hbm, ⟨31, _⟩ => ⟨S8x256, .f32⟩
  | .hbm, ⟨32, _⟩ => ⟨S_, .f32⟩
  | .hbm, ⟨33, _⟩ => ⟨S8, .f32⟩
  | .hbm, ⟨34, _⟩ => ⟨S8x1, .f32⟩
  | .hbm, ⟨35, _⟩ => ⟨S8x256, .f32⟩
  | .hbm, ⟨36, _⟩ => ⟨S8x256, .f32⟩
  | .hbm, ⟨37, _⟩ => ⟨S_, .f32⟩
  | .hbm, ⟨38, _⟩ => ⟨S8x256, .f32⟩
  | .hbm, ⟨39, _⟩ => ⟨S8x256, .f32⟩
  | .hbm, ⟨40, _⟩ => ⟨S8x256x1x1, .f32⟩
  | .hbm, ⟨41, _⟩ => ⟨S8x256x256x256, .f32⟩
  | .local _ .vmem, ⟨0, _⟩ => ⟨S1x256x32x256, .f32⟩
  | .local _ .vmem, ⟨1, _⟩ => ⟨S1x256x32x256, .f32⟩
  | .local _ .vmem, ⟨2, _⟩ => ⟨S1x256x1x1, .f32⟩
  | .local _ .vmem, ⟨3, _⟩ => ⟨S1x256x1x1, .f32⟩
  | .local _ .vmem, ⟨4, _⟩ => ⟨S1x256x32x256, .f32⟩
  | .local _ .vmem, ⟨5, _⟩ => ⟨S1x256x32x256, .f32⟩
  | _, _ => ⟨S8x256x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x256x32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  transposes_S256x256_S256x256_1_0 : S256x256.Transposes [1, 0] S256x256
  bcast_S256_S1x256_1 : S256.BroadcastsInDim S1x256 (![1] : Fin 1 → Fin S1x256.rank)
  bcast_S1x256_S8x256_0_1 : S1x256.BroadcastsInDim S8x256 (![0, 1] : Fin 2 → Fin S8x256.rank)
  bcast_S_S8x256 : S_.BroadcastsInDim S8x256 (![] : Fin 0 → Fin S8x256.rank)
  reducesTo_S8x256_S8_d1 : S8x256.ReducesTo [1] S8
  h_S_ : 0 < S_.numel
  bcast_S_S8 : S_.BroadcastsInDim S8 (![] : Fin 0 → Fin S8.rank)
  bcast_S8_S8x1_0 : S8.BroadcastsInDim S8x1 (![0] : Fin 1 → Fin S8x1.rank)
  bcast_S8x1_S8x256_0_1 : S8x1.BroadcastsInDim S8x256 (![0, 1] : Fin 2 → Fin S8x256.rank)
  shapeCasts_S8x256_S8x256x1x1 : S8x256.ShapeCasts S8x256x1x1
  inb_S1x256x32x256_S1x256x32x256_0_0_0_0 : ∀ a, (![0, 0, 0, 0] : Fin 4 → Nat) a + S1x256x32x256.size a ≤ S1x256x32x256.size a
  h_S1x256x32x256 : 0 < S1x256x32x256.numel
  inb_S1x256x1x1_S1x256x1x1_0_0_0_0 : ∀ a, (![0, 0, 0, 0] : Fin 4 → Nat) a + S1x256x1x1.size a ≤ S1x256x1x1.size a
  h_S1x256x1x1 : 0 < S1x256x1x1.numel
  shapeCasts_S1x256x1x1_S1x256x1x1 : S1x256x1x1.ShapeCasts S1x256x1x1
  broadcasts_S1x256x1x1_S1x256x32x256 : S1x256x1x1.Broadcasts S1x256x32x256
  dot_S8x256_S256x256_S8x256_1_0_0_1_n_n_wf : DotDims.WF S8x256 S256x256 S8x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x32x256.size a ≤ S8x256x256x256.size a
  hwx0_0 : ∀ i : grid0.Coords, EltTy.bits .f32 = 32 ∨ (Rect.block (s := S8x256x256x256) S1x256x32x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1x1.size a ≤ S8x256x1x1.size a
  hwx0_1 : ∀ i : grid0.Coords, EltTy.bits .f32 = 32 ∨ (Rect.block (s := S8x256x1x1) S1x256x1x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x32x256.size a ≤ S8x256x256x256.size a
  hwx0_2 : ∀ i : grid0.Coords, EltTy.bits .f32 = 32 ∨ (Rect.block (s := S8x256x256x256) S1x256x32x256.size (cc0_transform_2 i) (hinb0_2 i)).WholeWords (EltTy.packing .f32)

variable [Facts₀]

def dot_S8x256_S256x256_S8x256_1_0_0_1_n_n : DotDims S8x256 S256x256 S8x256 where
  lhsContracting := [1]
  rhsContracting := [0]
  lhsNonContracting := [0]
  rhsNonContracting := [1]
  lhsBatch := []
  rhsBatch := []
  wf := dot_S8x256_S256x256_S8x256_1_0_0_1_n_n_wf

abbrev win0_0 : Pipeline.Window sig grid0 :=
  Pipeline.Window.ofSpec (Memref.whole main_arg0) S1x256x32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S1x256x1x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S1x256x32x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x256x256x256 : Shape := ⟨4, ![8, 256, 256, 256]⟩
abbrev S8x256 : Shape := ⟨2, ![8, 256]⟩
abbrev S256x256 : Shape := ⟨2, ![256, 256]⟩
abbrev S256 : Shape := ⟨1, ![256]⟩
abbrev S1x256 : Shape := ⟨2, ![1, 256]⟩
abbrev S_ : Shape := ⟨0, ![]⟩
abbrev S8 : Shape := ⟨1, ![8]⟩
abbrev S8x1 : Shape := ⟨2, ![8, 1]⟩
abbrev S8x256x1x1 : Shape := ⟨4, ![8, 256, 1, 1]⟩

abbrev nBuf : Space → Nat
  | .hbm => 43
  | .vmem => 0
  | .smem => 0
  | _ => 0

abbrev bufTy : (tb : Table) → Fin (tcTables nBuf tb) → BufTy
  | .hbm, ⟨0, _⟩ => ⟨S8x256x256x256, .f32⟩
  | .hbm, ⟨1, _⟩ => ⟨S8x256, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S8x256, .f32⟩
  | .hbm, ⟨8, _⟩ => ⟨S1x256, .f32⟩
  | .hbm, ⟨9, _⟩ => ⟨S8x256, .f32⟩
  | .hbm, ⟨10, _⟩ => ⟨S8x256, .f32⟩
  | .hbm, ⟨11, _⟩ => ⟨S_, .f32⟩
  | .hbm, ⟨12, _⟩ => ⟨S8x256, .f32⟩
  | .hbm, ⟨13, _⟩ => ⟨S8x256, .i1⟩
  | .hbm, ⟨14, _⟩ => ⟨S_, .f32⟩
  | .hbm, ⟨15, _⟩ => ⟨S8x256, .f32⟩
  | .hbm, ⟨16, _⟩ => ⟨S8x256, .f32⟩
  | .hbm, ⟨17, _⟩ => ⟨S8x256, .f32⟩
  | .hbm, ⟨18, _⟩ => ⟨S256x256, .f32⟩
  | .hbm, ⟨19, _⟩ => ⟨S8x256, .f32⟩
  | .hbm, ⟨20, _⟩ => ⟨S1x256, .f32⟩
  | .hbm, ⟨21, _⟩ => ⟨S8x256, .f32⟩
  | .hbm, ⟨22, _⟩ => ⟨S8x256, .f32⟩
  | .hbm, ⟨23, _⟩ => ⟨S_, .f32⟩
  | .hbm, ⟨24, _⟩ => ⟨S8, .f32⟩
  | .hbm, ⟨25, _⟩ => ⟨S_, .f32⟩
  | .hbm, ⟨26, _⟩ => ⟨S8, .f32⟩
  | .hbm, ⟨27, _⟩ => ⟨S8, .f32⟩
  | .hbm, ⟨28, _⟩ => ⟨S8x1, .f32⟩
  | .hbm, ⟨29, _⟩ => ⟨S8x256, .f32⟩
  | .hbm, ⟨30, _⟩ => ⟨S8x256, .f32⟩
  | .hbm, ⟨31, _⟩ => ⟨S8x256, .f32⟩
  | .hbm, ⟨32, _⟩ => ⟨S_, .f32⟩
  | .hbm, ⟨33, _⟩ => ⟨S8, .f32⟩
  | .hbm, ⟨34, _⟩ => ⟨S8x1, .f32⟩
  | .hbm, ⟨35, _⟩ => ⟨S8x256, .f32⟩
  | .hbm, ⟨36, _⟩ => ⟨S8x256, .f32⟩
  | .hbm, ⟨37, _⟩ => ⟨S8x256x1x1, .f32⟩
  | .hbm, ⟨38, _⟩ => ⟨S_, .f32⟩
  | .hbm, ⟨39, _⟩ => ⟨S8x256x1x1, .f32⟩
  | .hbm, ⟨40, _⟩ => ⟨S8x256x1x1, .f32⟩
  | .hbm, ⟨41, _⟩ => ⟨S8x256x256x256, .f32⟩
  | .hbm, ⟨42, _⟩ => ⟨S8x256x256x256, .f32⟩
  | _, _ => ⟨S8x256x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]

class Facts₀ : Prop where
  transposes_S256x256_S256x256_1_0 : S256x256.Transposes [1, 0] S256x256
  bcast_S256_S1x256_1 : S256.BroadcastsInDim S1x256 (![1] : Fin 1 → Fin S1x256.rank)
  bcast_S1x256_S8x256_0_1 : S1x256.BroadcastsInDim S8x256 (![0, 1] : Fin 2 → Fin S8x256.rank)
  bcast_S_S8x256 : S_.BroadcastsInDim S8x256 (![] : Fin 0 → Fin S8x256.rank)
  reducesTo_S8x256_S8_d1 : S8x256.ReducesTo [1] S8
  h_S_ : 0 < S_.numel
  bcast_S_S8 : S_.BroadcastsInDim S8 (![] : Fin 0 → Fin S8.rank)
  bcast_S8_S8x1_0 : S8.BroadcastsInDim S8x1 (![0] : Fin 1 → Fin S8x1.rank)
  bcast_S8x1_S8x256_0_1 : S8x1.BroadcastsInDim S8x256 (![0, 1] : Fin 2 → Fin S8x256.rank)
  bcast_S8x256_S8x256x1x1_0_1 : S8x256.BroadcastsInDim S8x256x1x1 (![0, 1] : Fin 2 → Fin S8x256x1x1.rank)
  bcast_S_S8x256x1x1 : S_.BroadcastsInDim S8x256x1x1 (![] : Fin 0 → Fin S8x256x1x1.rank)
  bcast_S8x256x1x1_S8x256x256x256_0_1_2_3 : S8x256x1x1.BroadcastsInDim S8x256x256x256 (![0, 1, 2, 3] : Fin 4 → Fin S8x256x256x256.rank)
  dot_S8x256_S256x256_S8x256_1_0_0_1_n_n_wf : DotDims.WF S8x256 S256x256 S8x256 [1] [0] [0] [1] [] []

variable [Facts₀]

def dot_S8x256_S256x256_S8x256_1_0_0_1_n_n : DotDims S8x256 S256x256 S8x256 where
  lhsContracting := [1]
  rhsContracting := [0]
  lhsNonContracting := [0]
  rhsNonContracting := [1]
  lhsBatch := []
  rhsBatch := []
  wf := dot_S8x256_S256x256_S8x256_1_0_0_1_n_n_wf

class Facts : Prop extends Facts₀ where

variable [Facts]
-- ==== Proof.Scaled.lean ====
/-
  The function both programs compute. An image `x` of shape [8, 256, 256, 256] (batch, channel, row, lane) is
  multiplied, element by element, by `1 + w[batch, channel]`, where `w` of shape [8, 256] is the gate (the softmax
  of a two-layer perceptron of the small arguments). The gate enters only as an array: nothing here looks inside it.
  Stated over any float instance, since both programs apply the same two operations in the same order.
-/
import Idealize.ShloMosaic.Lib.Pipeline.Value
import Idealize.ShloMosaic.Lib.ValueIdx

noncomputable section

namespace Cert.ChannelScale

open Idealize.ShloMosaic

/-- The image's shape, the gate's shape, and the gate laid out as a column per (batch, channel). -/
abbrev Img : Shape := ⟨4, ![8, 256, 256, 256]⟩
abbrev Gate : Shape := ⟨2, ![8, 256]⟩
abbrev Col : Shape := ⟨4, ![8, 256, 1, 1]⟩

variable {F : FTy → Type} [FloatOps F]

/-- The (batch, channel) pair of an image index. -/
abbrev chan (i : Img.Idx) : Gate.Idx := fun a => match a with
  | ⟨0, _⟩ => ⟨(i 0).val, (i 0).isLt⟩
  | ⟨1, _⟩ => ⟨(i 1).val, (i 1).isLt⟩

/-- The column entry (batch, channel, 0, 0) under an image index. -/
abbrev col (i : Img.Idx) : Col.Idx := fun a => match a with
  | ⟨0, _⟩ => ⟨(i 0).val, (i 0).isLt⟩
  | ⟨1, _⟩ => ⟨(i 1).val, (i 1).isLt⟩
  | ⟨2, _⟩ => ⟨0, Nat.one_pos⟩
  | ⟨3, _⟩ => ⟨0, Nat.one_pos⟩

/-- The (batch, channel) pair of a column index. -/
abbrev colChan (k : Col.Idx) : Gate.Idx := fun a => match a with
  | ⟨0, _⟩ => ⟨(k 0).val, (k 0).isLt⟩
  | ⟨1, _⟩ => ⟨(k 1).val, (k 1).isLt⟩

theorem colChan_col (i : Img.Idx) : colChan (col i) = chan i :=
  funext fun a => match a with | ⟨0, _⟩ => rfl | ⟨1, _⟩ => rfl

/-- `x · (1 + w[batch, channel])`, index by index; `1` is the float word of one. -/
def scaled (x : Img.Idx → Elt F .f32) (w : Gate.Idx → Elt F .f32) : Img.Idx → Elt F .f32 :=
  fun i => FloatOps.mulf (x i) (FloatOps.addf (FloatOps.ofBits .f32 0x3F800000#32) (w (chan i)))

theorem scaled_apply (x : Img.Idx → Elt F .f32) (w : Gate.Idx → Elt F .f32) (i : Img.Idx) :
    scaled x w i = FloatOps.mulf (x i) (FloatOps.addf (FloatOps.ofBits .f32 0x3F800000#32) (w (chan i))) := rfl

end Cert.ChannelScale

end
-- ==== Proof.RefScaled.lean ====
/-
  The reference's result is `scaled` of the image and the gate: its last five operations broadcast the gate to a
  column per (batch, channel), add one, broadcast the column over rows and lanes and multiply the image by it, so
  at an image index the result is the image's entry times one plus the gate's entry at that index's batch and channel.
-/
import proofs.«129145_j32710470926817_1_alg».proof.Proof.Gen.ReferenceIdeal.Read
import proofs.«129145_j32710470926817_1_alg».proof.Proof.Scaled

noncomputable section

namespace Cert.ReferenceIdeal.RefScaled

open Cert.ReferenceIdeal Cert.ReferenceIdeal.Read Cert.ChannelScale Idealize.ShloMosaic

variable {F : FTy → Type} [FloatOps F]

/-- The reference's gate: the value of its operation 25 as a function of the five small arguments. -/
abbrev gate (x1 : (⟨S8x256, .f32⟩ : BufTy).Contents (Elt F)) (x2 : (⟨S256x256, .f32⟩ : BufTy).Contents (Elt F))
    (x3 : (⟨S256, .f32⟩ : BufTy).Contents (Elt F)) (x4 : (⟨S256x256, .f32⟩ : BufTy).Contents (Elt F))
    (x5 : (⟨S256, .f32⟩ : BufTy).Contents (Elt F)) : Gate.Idx → Elt F .f32 :=
  val_main_v25 (F := F) x1 x2 x3 x4 x5

/-- Reading the two broadcasts back to back lands on the index's batch and channel. -/
theorem idx_chan (i : S8x256x256x256.Idx) : idx_main_v26 (idx_main_v29 i) = chan i :=
  funext fun a => match a with | ⟨0, _⟩ => rfl | ⟨1, _⟩ => rfl

theorem result_scaled (x0 : (⟨S8x256x256x256, .f32⟩ : BufTy).Contents (Elt F)) (x1 : (⟨S8x256, .f32⟩ : BufTy).Contents (Elt F))
    (x2 : (⟨S256x256, .f32⟩ : BufTy).Contents (Elt F)) (x3 : (⟨S256, .f32⟩ : BufTy).Contents (Elt F))
    (x4 : (⟨S256x256, .f32⟩ : BufTy).Contents (Elt F)) (x5 : (⟨S256, .f32⟩ : BufTy).Contents (Elt F)) :
    val_main_v30 (F := F) x0 x1 x2 x3 x4 x5 = scaled x0 (gate x1 x2 x3 x4 x5) := by
  funext i
  rw [val_main_v30_apply, val_main_v29_apply, val_main_v28_apply, val_main_v27_apply, val_main_v26_apply,
    val_main_cst_4_apply, idx_chan, scaled_apply]

end Cert.ReferenceIdeal.RefScaled

end
-- ==== Proof.ScaleArray.lean ====
/-
  What the kernel's second window stages. Before the region the host operations compute the gate from the five small
  arguments exactly as the reference does (operation for operation, the same literals), add one, and reshape the
  [8, 256] result to a column per (batch, channel), shape [8, 256, 1, 1]. Row-major position is kept by a reshape, and
  the two trailing axes have extent one, so the column's entry (b, c, 0, 0) is one plus the gate's entry (b, c).
-/
import proofs.«129145_j32710470926817_1_alg».proof.Proof.Gen.KernelIdeal.Frame
import proofs.«129145_j32710470926817_1_alg».proof.Proof.RefScaled
import Idealize.ShloMosaic.Lib.StableHlo.Run

noncomputable section

namespace Cert.KernelIdeal.ScaleArray

open Cert.KernelIdeal Cert.KernelIdeal.Gen Cert.ChannelScale
open Idealize.ShloMosaic Idealize.ShloMosaic.TcCoe Idealize.SL.Sem Idealize.ShloMosaic.StableHlo

variable {F : FTy → Type} [FloatOps F]
variable (m : (ℓ : Loc nD τ sig) → Buf (Elt F) ℓ)

/-- The gate of the kernel's own small arguments, as launched. -/
abbrev gateOf (c : Dev nD) : Gate.Idx → Elt F .f32 :=
  Cert.ReferenceIdeal.RefScaled.gate (F := F) (m ((c : Thread nD τ).loc main_arg1)) (m ((c : Thread nD τ).loc main_arg2))
    (m ((c : Thread nD τ).loc main_arg3)) (m ((c : Thread nD τ).loc main_arg4)) (m ((c : Thread nD τ).loc main_arg5))

set_option maxHeartbeats 2000000 in
/-- The array the second window stages, as the region finds it: the reshape of one plus the gate. -/
theorem column_eq (c : Dev nD) :
    (V m c main_v28 : S8x256x1x1.Idx → Elt F .f32)
      = shapeCast S8x256x1x1 (addf (broadcastInDim S8x256 ![] bcast_S_S8x256 (constant (F := F) S_ .f32 0x3F800000#32)) (gateOf m c))
          shapeCasts_S8x256_S8x256x1x1 := by
  dsimp only [Gen.V]
  simp only [Gen.hostOps0, Gen.hostOps0_1, Gen.hostOps0_2, List.flatten_cons, List.flatten_nil, List.append_nil,
    List.cons_append, List.nil_append]
  after_results_simp <;> rfl

/-- The column at (b, c, 0, 0) is one plus the gate at (b, c). -/
theorem column_apply (c : Dev nD) (k : S8x256x1x1.Idx) :
    (V m c main_v28 : S8x256x1x1.Idx → Elt F .f32) k
      = FloatOps.addf (FloatOps.ofBits .f32 0x3F800000#32) (gateOf m c (colChan k)) := by
  have h2 : (k 2).val = 0 := by have := (k 2).isLt; simp at this; omega
  have h3 : (k 3).val = 0 := by have := (k 3).isLt; simp at this; omega
  rw [column_eq]
  refine (shapeCast_apply _ shapeCasts_S8x256_S8x256x1x1 k (colChan k) ?_).trans ?_
  · rw [Shape.rowMajor_val_two, Shape.rowMajor_val_four]
    show (k 0).val * 256 + (k 1).val = (((k 0).val * 256 + (k 1).val) * 1 + (k 2).val) * 1 + (k 3).val
    omega
  · show FloatOps.addf (broadcastInDim S8x256 ![] bcast_S_S8x256 (constant (F := F) S_ .f32 0x3F800000#32) (colChan k)) _ = _
    rw [broadcastInDim_apply _ bcast_S_S8x256 (constant (F := F) S_ .f32 0x3F800000#32) (colChan k) (fun a => a.elim0) (fun a => a.elim0)]
    rfl

end Cert.KernelIdeal.ScaleArray

end
-- ==== Proof.KernelBlocks.lean ====
/-
  The kernel's result array, from its blocks. The grid is 8 × 8: point (b, h) multiplies the block of the image at
  batch b, rows 32·h … 32·h + 31 (all channels, all lanes) by the column block of batch b (all channels), each
  channel's one entry spread over the block's rows and lanes, and writes the product to the same block of the result.
  Output and image move together, the column's block follows the batch coordinate only, and the 64 output blocks tile
  the result; so the result is, index by index, the image's entry times the column's entry at that index's batch
  and channel — and the column is one plus the gate.
-/
import proofs.«129145_j32710470926817_1_alg».proof.Proof.Gen.KernelIdeal.Value
import proofs.«129145_j32710470926817_1_alg».proof.Proof.ScaleArray

set_option maxRecDepth 16384

noncomputable section

namespace Cert.KernelIdeal.Blocks

open Cert.KernelIdeal Cert.KernelIdeal.Gen Cert.ChannelScale
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem zero_offsets : (![0, 0, 0, 0] : Fin 4 → Nat) = fun _ => 0 := funext fun a => by fin_cases a <;> rfl

/-- The image times the column under it, over the arrays as the region finds them. -/
abbrev product (c : Dev nD) : S8x256x256x256.Idx → Elt F .f32 :=
  fun i => FloatOps.mulf (V m c main_arg0 i) (V m c main_v28 (col i))

/-- The printed index maps, decided over the 64 points: the image's block index is the output's on every axis; the
    column's is the output's on the batch axis and zero elsewhere; the output's is (b, 0, h, 0) with b, h ≤ 7. -/
theorem index_maps : ∀ t : Fin cfg0.N,
    win0_0.index t (0 : Fin 4) = win0_2.index t (0 : Fin 4) ∧ win0_0.index t (1 : Fin 4) = win0_2.index t (1 : Fin 4)
    ∧ win0_0.index t (2 : Fin 4) = win0_2.index t (2 : Fin 4) ∧ win0_0.index t (3 : Fin 4) = win0_2.index t (3 : Fin 4)
    ∧ win0_1.index t (0 : Fin 4) = win0_2.index t (0 : Fin 4) ∧ win0_1.index t (1 : Fin 4) = 0
    ∧ win0_1.index t (2 : Fin 4) = 0 ∧ win0_1.index t (3 : Fin 4) = 0
    ∧ win0_2.index t (1 : Fin 4) = 0 ∧ win0_2.index t (3 : Fin 4) = 0 :=
  (by decide +kernel : ∀ t : Fin grid0.N, _)

/-- Every (batch, row-tile) pair is some point's output block index. -/
theorem index_onto : ∀ (b : Fin 8) (h : Fin 8), ∃ t : Fin cfg0.N, win0_2.index t = ![b.val, 0, h.val, 0] :=
  (by decide +kernel : ∀ (b : Fin 8) (h : Fin 8), ∃ t : Fin grid0.N, win0_2.index t = ![b.val, 0, h.val, 0])

/-- What point `t` writes back is block `t` of `product`. -/
theorem flushed_eq (c : Dev nD) (t : Fin cfg0.N) :
    (dats m 0 c).flushed 2 t = ((cfg0.win 2).blk t).view.read (Elt F) (product m c) := by
  rw [Value.flushed2]
  unfold out0_2
  simp only [View.ld_unit_zero (S := S1x256x32x256) zero_offsets, View.ld_unit_zero (S := S1x256x1x1) zero_offsets]
  obtain ⟨e0, e1, e2, e3, f0, f1, f2, f3, g1, g3⟩ := index_maps t
  funext j
  refine (Value.canon2_eq (iblk m c 0 t) (iblk m c 1 t) j).trans ?_
  have hj0 : (j 0).val < 1 := (j 0).isLt
  have hj1 : (j 1).val < 256 := (j 1).isLt
  have hj2 : (j 2).val < 32 := (j 2).isLt
  have hj3 : (j 3).val < 256 := (j 3).isLt
  show FloatOps.mulf (V m c main_arg0 (((cfg0.win 0).blk t).view.emb (Value.ix2_0 j)))
      (V m c main_v28 (((cfg0.win 1).blk t).view.emb (Value.ix2_1 j)))
    = FloatOps.mulf (V m c main_arg0 (((cfg0.win 2).blk t).view.emb j)) (V m c main_v28 (col (((cfg0.win 2).blk t).view.emb j)))
  have h0 : ((cfg0.win 0).blk t).view.emb (Value.ix2_0 j) = ((cfg0.win 2).blk t).view.emb j := by
    funext a; apply Fin.ext
    match a with
    | ⟨0, _⟩ => show win0_0.index t (0 : Fin 4) * 1 + 1 * 0 = win0_2.index t (0 : Fin 4) * 1 + 1 * (j 0).val; omega
    | ⟨1, _⟩ => show win0_0.index t (1 : Fin 4) * 256 + 1 * (j 1).val = win0_2.index t (1 : Fin 4) * 256 + 1 * (j 1).val; omega
    | ⟨2, _⟩ => show win0_0.index t (2 : Fin 4) * 32 + 1 * (j 2).val = win0_2.index t (2 : Fin 4) * 32 + 1 * (j 2).val; omega
    | ⟨3, _⟩ => show win0_0.index t (3 : Fin 4) * 256 + 1 * (j 3).val = win0_2.index t (3 : Fin 4) * 256 + 1 * (j 3).val; omega
  have h1 : ((cfg0.win 1).blk t).view.emb (Value.ix2_1 j) = col (((cfg0.win 2).blk t).view.emb j) := by
    funext a; apply Fin.ext
    match a with
    | ⟨0, _⟩ => show win0_1.index t (0 : Fin 4) * 1 + 1 * 0 = win0_2.index t (0 : Fin 4) * 1 + 1 * (j 0).val; omega
    | ⟨1, _⟩ => show win0_1.index t (1 : Fin 4) * 256 + 1 * (j 1).val = win0_2.index t (1 : Fin 4) * 256 + 1 * (j 1).val; omega
    | ⟨2, _⟩ => show win0_1.index t (2 : Fin 4) * 1 + 1 * 0 = 0; omega
    | ⟨3, _⟩ => show win0_1.index t (3 : Fin 4) * 1 + 1 * 0 = 0; omega
  rw [h0, h1]

/-- An index of the result is in point `t`'s block iff each coordinate is in the block's range on its axis. -/
theorem mem_block (t : Fin cfg0.N) (i : S8x256x256x256.Idx) :
    i ∈ ((cfg0.win 2).blk t).view.set ↔ ∀ a : Fin 4, win0_2.index t a * S1x256x32x256.size a ≤ (i a).val
      ∧ (i a).val < win0_2.index t a * S1x256x32x256.size a + S1x256x32x256.size a := by
  show i ∈ ((View.whole main_v29).slice (win0_2.rect t)).set ↔ _
  rw [View.set_slice_whole, Rect.mem_set_unit]
  exact Iff.rfl

/-- The 64 blocks tile the result: index (b, c, r, l) lies in the block of the point with output index (b, 0, r / 32, 0). -/
theorem blocks_cover (i : S8x256x256x256.Idx) :
    ∃ t : Fin cfg0.N, (cfg0.win 2).flush t = true ∧ i ∈ ((cfg0.win 2).blk t).view.set := by
  have hi0 : (i 0).val < 8 := (i 0).isLt
  have hi1 : (i 1).val < 256 := (i 1).isLt
  have hi2 : (i 2).val < 256 := (i 2).isLt
  have hi3 : (i 3).val < 256 := (i 3).isLt
  obtain ⟨t, ht⟩ := index_onto ⟨(i 0).val, hi0⟩ ⟨(i 2).val / 32, by omega⟩
  have q0 : win0_2.index t (0 : Fin 4) = (i 0).val := congrFun ht 0
  have q1 : win0_2.index t (1 : Fin 4) = 0 := congrFun ht 1
  have q2 : win0_2.index t (2 : Fin 4) = (i 2).val / 32 := congrFun ht 2
  have q3 : win0_2.index t (3 : Fin 4) = 0 := congrFun ht 3
  refine ⟨t, flush0_2 t, ?_⟩
  rw [mem_block]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 256 ≤ (i 1).val ∧ (i 1).val < win0_2.index t (1 : Fin 4) * 256 + 256; omega
  | ⟨2, _⟩ => show win0_2.index t (2 : Fin 4) * 32 ≤ (i 2).val ∧ (i 2).val < win0_2.index t (2 : Fin 4) * 32 + 32; omega
  | ⟨3, _⟩ => show win0_2.index t (3 : Fin 4) * 256 ≤ (i 3).val ∧ (i 3).val < win0_2.index t (3 : Fin 4) * 256 + 256; omega

/-- The result array after the run is `product`. -/
theorem result_product (c : Dev nD) : (dats m 0 c).arrAt 2 cfg0.N = product m c :=
  (dats m 0 c).arrAt_eq_of_cover 2 (product m c) (fun t _ => flushed_eq m c t) blocks_cover

/-- No host operation writes the image, and the column is one plus the gate: `product` is `scaled` of the image
    as launched and the gate of the small arguments as launched. -/
theorem product_scaled (c : Dev nD) :
    product m c = scaled (m ((c : Thread nD τ).loc main_arg0)) (ScaleArray.gateOf m c) := by
  funext i
  show FloatOps.mulf (V m c main_arg0 i) ((V m c main_v28 : S8x256x1x1.Idx → Elt F .f32) (col i)) = _
  rw [V_main_arg0, ScaleArray.column_apply, colChan_col, scaled_apply]

/-- The kernel's run, read: the result is `scaled` of the image and the gate, the arguments unchanged. -/
theorem run : θ_run defs (onTc (τ := τ) (main (F := F))) ⟨m, fun _ => 0, ρ⟩ fun r => ∀ c : Dev nD,
      r.2.mem ((c : Thread nD τ).loc main_v29) = scaled (m ((c : Thread nD τ).loc main_arg0)) (ScaleArray.gateOf m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans ((result_product m c).trans (product_scaled m c)), (h c).2⟩)
    (Value.run_blocks m ρ)

end Cert.KernelIdeal.Blocks

end
-- ==== Proof.lean ====
/-
  A per-channel gate applied to an image. Both programs compute, on the host, the same gate `w` of shape [8, 256] from
  the five small arguments — a linear layer, a leaky rectifier, a second linear layer and a row softmax, operation for
  operation the same with the same literals — and return `x · (1 + w[batch, channel])` for the image `x` of shape
  [8, 256, 256, 256]. The reference broadcasts `1 + w` over rows and lanes and multiplies once; the kernel reshapes
  `1 + w` to a column per (batch, channel) and multiplies the image by it block by block on an 8 × 8 grid (batch, tile
  of 32 rows), each block holding all channels and lanes. Index by index the two results are the same product of the
  same two numbers, so no law of arithmetic and no finiteness of the inputs is used: the proof is where each side reads
  its two factors. The gate itself is never opened.

  Proof/Scaled.lean       the common function `scaled x w`
  Proof/RefScaled.lean    the reference's last five operations read at an index
  Proof/ScaleArray.lean   the kernel's column array is the reshape of one plus the gate
  Proof/KernelBlocks.lean the kernel's 64 blocks tile the result, each a block of `scaled`
  Here: the three frames (the kernel's two from the generated frame, the reference's from its run), the idealization
  (nothing was rewritten), and the equivalence.
-/
import proofs.«129145_j32710470926817_1_alg».proof.Defs
import proofs.«129145_j32710470926817_1_alg».proof.Proof.Gen.Kernel
import proofs.«129145_j32710470926817_1_alg».proof.Proof.Gen.Kernel.Skeleton
import proofs.«129145_j32710470926817_1_alg».proof.Proof.Gen.Kernel.Launch
import proofs.«129145_j32710470926817_1_alg».proof.Proof.Gen.Kernel.Points
import proofs.«129145_j32710470926817_1_alg».proof.Proof.Gen.Kernel.Frame
import proofs.«129145_j32710470926817_1_alg».proof.Proof.Gen.KernelIdeal
import proofs.«129145_j32710470926817_1_alg».proof.Proof.Gen.KernelIdeal.Skeleton
import proofs.«129145_j32710470926817_1_alg».proof.Proof.Gen.KernelIdeal.Launch
import proofs.«129145_j32710470926817_1_alg».proof.Proof.Gen.KernelIdeal.Points
import proofs.«129145_j32710470926817_1_alg».proof.Proof.Gen.KernelIdeal.Frame
import proofs.«129145_j32710470926817_1_alg».proof.Proof.Gen.ReferenceIdeal
import proofs.«129145_j32710470926817_1_alg».proof.Proof.Gen.Pre_finite_inputs
import proofs.«129145_j32710470926817_1_alg».proof.Proof.Gen.KernelIdeal.Value
import proofs.«129145_j32710470926817_1_alg».proof.Proof.Gen.ReferenceIdeal.Run
import proofs.«129145_j32710470926817_1_alg».proof.Proof.Gen.ReferenceIdeal.Read
import proofs.«129145_j32710470926817_1_alg».proof.Proof.RefScaled
import proofs.«129145_j32710470926817_1_alg».proof.Proof.KernelBlocks
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the six arguments both programs end with the image times one plus the gate of the
    small arguments: the kernel by its blocks, the reference by its last five operations, and the two gates are one
    function applied to equal arguments. -/
theorem algebraic : Cert.algebraic_KernelIdeal_ReferenceIdeal := by
  intro m ρ m' ρ' _ hagree
  refine ⟨fun c => Cert.ChannelScale.scaled (m ((c : Thread Cert.KernelIdeal.nD Cert.KernelIdeal.τ).loc Cert.KernelIdeal.main_arg0))
      (Cert.KernelIdeal.ScaleArray.gateOf m c), Cert.KernelIdeal.Blocks.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.ReferenceIdeal.RefScaled.result_scaled,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
